-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64x2048 : Shape := ⟨3, ![4, 64, 2048]⟩
abbrev S_ : Shape := ⟨0, ![]⟩

class Facts : Prop where
  bcast_S_S4x64x2048 : S_.BroadcastsInDim S4x64x2048 (![] : Fin 0 → Fin S4x64x2048.rank)
  reducesTo_S4x64x2048_S_d0_1_2 : S4x64x2048.ReducesTo [0, 1, 2] S_
  h_S_ : 0 < S_.numel

variable [Facts]

def fn {F : FTy → Type} [FloatOps F] (main_arg0 : FVec F S4x64x2048 .f32) : IVec S_ 1 :=
  let main_v0 : FVec F S4x64x2048 .f32 := Host.absf main_arg0
  let main_cst : FVec F S_ .f32 := constant S_ .f32 0x7F800000#32
  let main_v1 : FVec F S4x64x2048 .f32 := broadcastInDim S4x64x2048 ![] bcast_S_S4x64x2048 main_cst
  let main_v2 : IVec S4x64x2048 1 := cmpf .olt main_v0 main_v1
  let main_c : IVec S_ 1 := constantI S_ 1 1#1
  let main_v3 : IVec S_ 1 := (fun x v => Host.reduce IntOp.andi x v reducesTo_S4x64x2048_S_d0_1_2 h_S_) main_v2 main_c
  main_v3
-- ==== Kernel.lean ====
abbrev S4x64x2048 : Shape := ⟨3, ![4, 64, 2048]⟩
abbrev S4x2048x2048 : Shape := ⟨3, ![4, 2048, 2048]⟩
abbrev S1x64x2048 : Shape := ⟨3, ![1, 64, 2048]⟩
abbrev S1x512x2048 : Shape := ⟨3, ![1, 512, 2048]⟩
abbrev S64x2048 : Shape := ⟨2, ![64, 2048]⟩
abbrev S1x64x512 : Shape := ⟨3, ![1, 64, 512]⟩
abbrev S64x512 : Shape := ⟨2, ![64, 512]⟩
abbrev S512x2048 : Shape := ⟨2, ![512, 2048]⟩
abbrev S2048 : Shape := ⟨1, ![2048]⟩
abbrev S512 : Shape := ⟨1, ![512]⟩
abbrev S512x1 : Shape := ⟨2, ![512, 1]⟩
abbrev S1x2048 : Shape := ⟨2, ![1, 2048]⟩

abbrev nBuf : Space → Nat
  | .hbm => 2
  | .vmem => 4
  | .smem => 0
  | _ => 0

abbrev bufTy : (tb : Table) → Fin (tcTables nBuf tb) → BufTy
  | .hbm, ⟨0, _⟩ => ⟨S4x64x2048, .f32⟩
  | .hbm, ⟨1, _⟩ => ⟨S4x2048x2048, .f32⟩
  | .local _ .vmem, ⟨0, _⟩ => ⟨S1x64x2048, .f32⟩
  | .local _ .vmem, ⟨1, _⟩ => ⟨S1x64x2048, .f32⟩
  | .local _ .vmem, ⟨2, _⟩ => ⟨S1x512x2048, .f32⟩
  | .local _ .vmem, ⟨3, _⟩ => ⟨S1x512x2048, .f32⟩
  | _, _ => ⟨S4x64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 4], ![false, false]⟩

def k0_off1 (i : grid0.Coords) : Fin 3 → Nat :=
  let c0_2 : Index := 0#32
  let c0_3 : Index := 0#32
  let arg1 : BitVec 32 := BitVec.ofNat 32 (i 1).val
  let c512_i32 : BitVec 32 := 512#32
  let v2 : BitVec 32 := Scalar.muli arg1 c512_i32
  let v3 : Index := Scalar.indexCast v2
  ![0, 0, v3.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S1x64x2048_S1x64x2048_0_0_0 : ∀ a, (![0, 0, 0] : Fin 3 → Nat) a + S1x64x2048.size a ≤ S1x64x2048.size a
  h_S1x64x2048 : 0 < S1x64x2048.numel
  shapeCasts_S1x64x2048_S64x2048 : S1x64x2048.ShapeCasts S64x2048
  h_S1x64x512 : 0 < S1x64x512.numel
  shapeCasts_S1x64x512_S64x512 : S1x64x512.ShapeCasts S64x512
  reduces_S64x2048_S2048 : S64x2048.Reduces [0] S2048
  reduces_S64x512_S512 : S64x512.Reduces [0] S512
  shapeCasts_S512_S512x1 : S512.ShapeCasts S512x1
  shapeCasts_S2048_S1x2048 : S2048.ShapeCasts S1x2048
  broadcasts_S512x1_S512x2048 : S512x1.Broadcasts S512x2048
  broadcasts_S1x2048_S512x2048 : S1x2048.Broadcasts S512x2048
  iota_S512x2048_d0_w32 : S512x2048.Iotas .tc 32 [0]
  iota_S512x2048_d1_w32 : S512x2048.Iotas .tc 32 [1]
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  dot_S64x512_S64x2048_S512x2048_0_0_1_1_n_n_wf : DotDims.WF S64x512 S64x2048 S512x2048 [0] [0] [1] [1] [] []
  hrank0 : 0 < grid0.rank
  k0_off1_inb : ∀ i : grid0.Coords, ∀ a, (k0_off1 i) a + S1x64x512.size a ≤ S1x64x2048.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x2048.size a ≤ S4x64x2048.size a
  hwx0_0 : ∀ i : grid0.Coords, EltTy.bits .f32 = 32 ∨ (Rect.block (s := S4x64x2048) S1x64x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x2048.size a ≤ S4x2048x2048.size a
  hwx0_1 : ∀ i : grid0.Coords, EltTy.bits .f32 = 32 ∨ (Rect.block (s := S4x2048x2048) S1x512x2048.size (cc0_transform_1 i) (hinb0_1 i)).WholeWords (EltTy.packing .f32)

variable [Facts₀]

def dot_S64x512_S64x2048_S512x2048_0_0_1_1_n_n : DotDims S64x512 S64x2048 S512x2048 where
  lhsContracting := [0]
  rhsContracting := [0]
  lhsNonContracting := [1]
  rhsNonContracting := [1]
  lhsBatch := []
  rhsBatch := []
  wf := dot_S64x512_S64x2048_S512x2048_0_0_1_1_n_n_wf

abbrev win0_0 : Pipeline.Window sig grid0 :=
  Pipeline.Window.ofSpec (Memref.whole main_arg0) S1x64x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x512x2048.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4x64x2048 : Shape := ⟨3, ![4, 64, 2048]⟩
abbrev S_ : Shape := ⟨0, ![]⟩
abbrev S4x2048 : Shape := ⟨2, ![4, 2048]⟩
abbrev S4x2048x2048 : Shape := ⟨3, ![4, 2048, 2048]⟩
abbrev S4x2048x1 : Shape := ⟨3, ![4, 2048, 1]⟩
abbrev S4x1x2048 : Shape := ⟨3, ![4, 1, 2048]⟩
abbrev S2048x2048 : Shape := ⟨2, ![2048, 2048]⟩
abbrev S1x2048x2048 : Shape := ⟨3, ![1, 2048, 2048]⟩

abbrev nBuf : Space → Nat
  | .hbm => 26
  | .vmem => 0
  | .smem => 0
  | _ => 0

abbrev bufTy : (tb : Table) → Fin (tcTables nBuf tb) → BufTy
  | .hbm, ⟨0, _⟩ => ⟨S4x64x2048, .f32⟩
  | .hbm, ⟨1, _⟩ => ⟨S4x64x2048, .f32⟩
  | .hbm, ⟨2, _⟩ => ⟨S_, .f32⟩
  | .hbm, ⟨3, _⟩ => ⟨S4x2048, .f32⟩
  | .hbm, ⟨4, _⟩ => ⟨S4x2048, .f32⟩
  | .hbm, ⟨5, _⟩ => ⟨S4x2048x2048, .f32⟩
  | .hbm, ⟨6, _⟩ => ⟨S4x2048x1, .f32⟩
  | .hbm, ⟨7, _⟩ => ⟨S4x1x2048, .f32⟩
  | .hbm, ⟨8, _⟩ => ⟨S4x2048x2048, .f32⟩
  | .hbm, ⟨9, _⟩ => ⟨S4x2048x2048, .f32⟩
  | .hbm, ⟨10, _⟩ => ⟨S4x2048x2048, .f32⟩
  | .hbm, ⟨11, _⟩ => ⟨S_, .f32⟩
  | .hbm, ⟨12, _⟩ => ⟨S4x2048x2048, .f32⟩
  | .hbm, ⟨13, _⟩ => ⟨S4x2048x2048, .f32⟩
  | .hbm, ⟨14, _⟩ => ⟨S4x2048x2048, .f32⟩
  | .hbm, ⟨15, _⟩ => ⟨S2048x2048, .i32⟩
  | .hbm, ⟨16, _⟩ => ⟨S2048x2048, .i32⟩
  | .hbm, ⟨17, _⟩ => ⟨S_, .i32⟩
  | .hbm, ⟨18, _⟩ => ⟨S2048x2048, .i32⟩
  | .hbm, ⟨19, _⟩ => ⟨S2048x2048, .i32⟩
  | .hbm, ⟨20, _⟩ => ⟨S2048x2048, .i1⟩
  | .hbm, ⟨21, _⟩ => ⟨S1x2048x2048, .i1⟩
  | .hbm, ⟨22, _⟩ => ⟨S_, .f32⟩
  | .hbm, ⟨23, _⟩ => ⟨S4x2048x2048, .i1⟩
  | .hbm, ⟨24, _⟩ => ⟨S4x2048x2048, .f32⟩
  | .hbm, ⟨25, _⟩ => ⟨S4x2048x2048, .f32⟩
  | _, _ => ⟨S4x64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_c : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_1 : Ref sig .tc := ⟨.hbm, 22, rfl⟩
abbrev main_call0_v0 : Ref sig .tc := ⟨.hbm, 23, rfl⟩
abbrev main_call0_v1 : Ref sig .tc := ⟨.hbm, 24, rfl⟩
abbrev main_v18 : Ref sig .tc := ⟨.hbm, 25, rfl⟩

abbrev nD : Nat := 1
abbrev τ : Topo := Topo.v7x

variable {F : FTy → Type} [FloatOps F]

class Facts₀ : Prop where
  reducesTo_S4x64x2048_S4x2048_d1 : S4x64x2048.ReducesTo [1] S4x2048
  h_S_ : 0 < S_.numel
  bcast_S4x2048_S4x2048x1_0_1 : S4x2048.BroadcastsInDim S4x2048x1 (![0, 1] : Fin 2 → Fin S4x2048x1.rank)
  bcast_S4x2048_S4x1x2048_0_2 : S4x2048.BroadcastsInDim S4x1x2048 (![0, 2] : Fin 2 → Fin S4x1x2048.rank)
  bcast_S4x2048x1_S4x2048x2048_0_1_2 : S4x2048x1.BroadcastsInDim S4x2048x2048 (![0, 1, 2] : Fin 3 → Fin S4x2048x2048.rank)
  bcast_S4x1x2048_S4x2048x2048_0_1_2 : S4x1x2048.BroadcastsInDim S4x2048x2048 (![0, 1, 2] : Fin 3 → Fin S4x2048x2048.rank)
  bcast_S_S4x2048x2048 : S_.BroadcastsInDim S4x2048x2048 (![] : Fin 0 → Fin S4x2048x2048.rank)
  bcast_S_S2048x2048 : S_.BroadcastsInDim S2048x2048 (![] : Fin 0 → Fin S2048x2048.rank)
  bcast_S2048x2048_S1x2048x2048_1_2 : S2048x2048.BroadcastsInDim S1x2048x2048 (![1, 2] : Fin 2 → Fin S1x2048x2048.rank)
  bcast_S1x2048x2048_S4x2048x2048_0_1_2 : S1x2048x2048.BroadcastsInDim S4x2048x2048 (![0, 1, 2] : Fin 3 → Fin S4x2048x2048.rank)
  dot_S4x64x2048_S4x64x2048_S4x2048x2048_1_1_2_2_0_0_wf : DotDims.WF S4x64x2048 S4x64x2048 S4x2048x2048 [1] [1] [2] [2] [0] [0]

variable [Facts₀]

def dot_S4x64x2048_S4x64x2048_S4x2048x2048_1_1_2_2_0_0 : DotDims S4x64x2048 S4x64x2048 S4x2048x2048 where
  lhsContracting := [1]
  rhsContracting := [1]
  lhsNonContracting := [2]
  rhsNonContracting := [2]
  lhsBatch := [0]
  rhsBatch := [0]
  wf := dot_S4x64x2048_S4x64x2048_S4x2048x2048_1_1_2_2_0_0_wf

class Facts : Prop extends Facts₀ where

variable [Facts]
-- ==== Proof.CosineSpec.lean ====
/-
  The function both programs compute, and the two word-level facts about its mask.

  For an array `x` of extents [4, 64, 2048] over the extended reals, write `x_b(·, p)` for column `p` of batch `b`
  (64 entries). The result, of extents [4, 2048, 2048], is at `(b, p, q)`

      1                                                    if p = q,
      ⟨x_b(·,p), x_b(·,q)⟩ / max (‖x_b(·,p)‖ · ‖x_b(·,q)‖, ε)   otherwise,

  with `⟨u, v⟩ = ∑ₖ uₖ vₖ`, `‖u‖ = √(∑ₖ uₖ²)`, `ε` and `1` the two f32 words the programs share (never evaluated:
  the same word on both sides), the quotient and the root the ideal ones, corners included. No law of arithmetic is
  needed beyond `0 + s = s`: both programs form the same sums over the same 64 entries.

  The mask `p = q` is computed on 32-bit words (a row counter, offset by the tile's first row in one program, compared
  with a column counter); below 2³² those words compare as the naturals do.
-/
import Idealize.ShloMosaic.PureOps.Ideal
import Idealize.ShloMosaic.Lib.ValueIdx

noncomputable section

open scoped BigOperators

namespace Cert.Cosine

open Idealize.ShloMosaic Idealize.ShloMosaic.ValueIdx

/-- The argument's index type, [4, 64, 2048], and the result's, [4, 2048, 2048]. -/
abbrev XIdx : Type := (⟨3, ![4, 64, 2048]⟩ : Shape).Idx
abbrev OIdx : Type := (⟨3, ![4, 2048, 2048]⟩ : Shape).Idx

/-- The inner product of columns `p` and `q` of batch `b`. -/
def gram (x : XIdx → EReal) (b : Fin 4) (p q : Fin 2048) : EReal :=
  ∑ k : Fin 64, x (ix3 b k p) * x (ix3 b k q)

/-- The Euclidean norm of column `p` of batch `b`: the ideal root of the sum of its squares. -/
def norm (x : XIdx → EReal) (b : Fin 4) (p : Fin 2048) : EReal :=
  Ideal.sqrt (∑ k : Fin 64, x (ix3 b k p) * x (ix3 b k p))

/-- The cosine similarity of the two columns with the clamped denominator (no diagonal yet). -/
def sim (x : XIdx → EReal) (b : Fin 4) (p q : Fin 2048) : EReal :=
  Ideal.div (gram x b p q) (max (norm x b p * norm x b q) (Ideal.ofBits .f32 0x322BCC77#32))

/-- The whole result: one on the diagonal, the similarity off it. -/
def cosSim (x : XIdx → EReal) : OIdx → EReal := fun i =>
  if (i 1).val = (i 2).val then Ideal.ofBits .f32 0x3F800000#32 else sim x (i 0) (i 1) (i 2)

/-- Two naturals below 2³² are equal exactly when their 32-bit words are: the word comparison's bit. -/
theorem cmpi_eq_ofNat (a b : Nat) (ha : a < 2 ^ 32) (hb : b < 2 ^ 32) :
    IntOp.cmpi .eq (BitVec.ofNat 32 a) (BitVec.ofNat 32 b) = if a = b then 1#1 else 0#1 := by
  unfold IntOp.cmpi
  by_cases h : a = b
  · subst h; simp
  · have hne : BitVec.ofNat 32 a ≠ BitVec.ofNat 32 b := fun e => h (by
      have e' := congrArg BitVec.toNat e
      rw [BitVec.toNat_ofNat, BitVec.toNat_ofNat, Nat.mod_eq_of_lt ha, Nat.mod_eq_of_lt hb] at e'
      exact e')
    rw [if_neg h, beq_false_of_ne hne]
    rfl

/-- A select on the bit of a decided proposition is the `if`. -/
theorem select_ite {α : Type} (P : Prop) [Decidable P] (a b : α) :
    Scalar.select (if P then 1#1 else 0#1) a b = if P then a else b := by
  by_cases h : P
  · rw [if_pos h, if_pos h]; exact select_one a b
  · rw [if_neg h, if_neg h]; exact select_zero a b

/-- The row counter of a tile: the tile's number times 512 plus the row inside the tile, as words, is the word of the
    natural `512 t + r`. -/
theorem tile_row_word (t r : Nat) :
    IntOp.addi (Scalar.muli (BitVec.ofNat 32 t) 512#32) (BitVec.ofNat 32 r) = BitVec.ofNat 32 (t * 512 + r) := by
  unfold IntOp.addi Scalar.muli IntOp.muli
  rw [BitVec.ofNat_add, BitVec.ofNat_mul]

/-- A row counter with the zero word added is itself. -/
theorem row_word_add_zero (r : Nat) : IntOp.addi (BitVec.ofNat 32 r) 0#32 = BitVec.ofNat 32 r := by
  unfold IntOp.addi; simp

end Cert.Cosine

end
-- ==== Proof.RefIsCosine.lean ====
/-
  The reference's result is the cosine-similarity function of the argument.

  Read one operation at a time, the reference forms at `(b, p, q)`: the inner product `∑ₖ x(b,k,p) · x(b,k,q)` (its
  contraction over the 64 entries of a column); the two norms as roots of `0 + ∑ₖ x(b,k,·)²`, broadcast along a row and
  along a column; their product clamped below by `ε`; the quotient; and a select on the word comparison of a row counter
  (plus a zero word) with a column counter, which below 2³² is the comparison `p = q` of naturals. The only arithmetic is
  `0 + s = s` for the sum's initial value.
-/
import proofs.«125126_g29618094474071_cont_9to1_1740_5_alg».proof.Proof.Gen.ReferenceIdeal.Read
import proofs.«125126_g29618094474071_cont_9to1_1740_5_alg».proof.Proof.CosineSpec

noncomputable section

namespace Cert.ReferenceIdeal.RefValue

open Cert.ReferenceIdeal Cert.ReferenceIdeal.Read Idealize.ShloMosaic Idealize.ShloMosaic.ValueIdx Cert.Cosine

/-- The entries the reference's contraction multiplies at `(b, p, q)` are `x(b, k, p)` and `x(b, k, q)`. -/
theorem lidx_eq (b : Fin 4) (p q : Fin 2048) (k : Fin 64) : lidx_main_v3 (ix3 b p q) k = ix3 b k p :=
  funext fun a => Fin.ext (by match a with | ⟨0, _⟩ => rfl | ⟨1, _⟩ => rfl | ⟨2, _⟩ => rfl)
theorem ridx_eq (b : Fin 4) (p q : Fin 2048) (k : Fin 64) : ridx_main_v3 (ix3 b p q) k = ix3 b k q :=
  funext fun a => Fin.ext (by match a with | ⟨0, _⟩ => rfl | ⟨1, _⟩ => rfl | ⟨2, _⟩ => rfl)
/-- The norm broadcast along a row is column `p`'s, the one broadcast along a column is column `q`'s. -/
theorem rowNorm_idx (b : Fin 4) (p q : Fin 2048) (k : Fin 64) :
    idx_main_v1 (idx_main_v4 (idx_main_v6 (ix3 b p q))) k = ix3 b k p :=
  funext fun a => Fin.ext (by match a with | ⟨0, _⟩ => rfl | ⟨1, _⟩ => rfl | ⟨2, _⟩ => rfl)
theorem colNorm_idx (b : Fin 4) (p q : Fin 2048) (k : Fin 64) :
    idx_main_v1 (idx_main_v5 (idx_main_v7 (ix3 b p q))) k = ix3 b k q :=
  funext fun a => Fin.ext (by match a with | ⟨0, _⟩ => rfl | ⟨1, _⟩ => rfl | ⟨2, _⟩ => rfl)

/-- The reference's diagonal mask at `(b, p, q)` is the bit of `p = q`. -/
theorem mask_eq (b : Fin 4) (p q : Fin 2048) :
    val_main_call0_v0 (F := Ideal) (ix3 b p q) = if p.val = q.val then 1#1 else 0#1 := by
  rw [val_main_call0_v0_apply, val_main_v17_apply, val_main_v16_apply, val_main_v15_apply, val_main_v12_apply,
    val_main_v14_apply, val_main_c_apply, val_main_v13_apply]
  show IntOp.cmpi .eq (IntOp.addi (BitVec.ofNat 32 p.val) 0#32) (BitVec.ofNat 32 q.val) = _
  rw [row_word_add_zero]
  exact cmpi_eq_ofNat _ _ (by have := p.isLt; omega) (by have := q.isLt; omega)

/-- The reference's clamped quotient at `(b, p, q)` is the similarity of columns `p` and `q`. -/
theorem quotient_eq (x0 : (⟨S4x64x2048, .f32⟩ : BufTy).Contents (Elt Ideal)) (b : Fin 4) (p q : Fin 2048) :
    val_main_v11 (F := Ideal) x0 (ix3 b p q) = sim x0 b p q := by
  simp only [val_main_v11_apply, val_main_v3_apply, val_main_v10_apply, val_main_v8_apply, val_main_v6_apply,
    val_main_v7_apply, val_main_v4_apply, val_main_v5_apply, val_main_v2_apply, val_main_v1_apply, val_main_v0_apply,
    val_main_v9_apply, val_main_cst_0_apply, val_main_cst_apply, lidx_eq, ridx_eq, rowNorm_idx, colNorm_idx,
    Ideal.hostDivf_def, Ideal.maximumf_def, Ideal.mulf_def, Ideal.hostUnary_sqrt_def, Ideal.ofBits_def,
    Ideal.ofBits_zero_f32, zero_add]
  rfl

/-- The reference's result array is the cosine-similarity function of its argument. -/
theorem result_eq (x0 : (⟨S4x64x2048, .f32⟩ : BufTy).Contents (Elt Ideal)) :
    val_main_v18 (F := Ideal) x0 = cosSim x0 := by
  funext i
  obtain ⟨b, p, q, rfl⟩ : ∃ (b : Fin 4) (p q : Fin 2048), i = ix3 b p q := ⟨i 0, i 1, i 2, eq_ix3 i⟩
  rw [val_main_v18_apply, mask_eq, quotient_eq, select_ite, val_main_call0_v1_apply, val_main_cst_1_apply]
  rfl

end Cert.ReferenceIdeal.RefValue

end
-- ==== Proof.TilePayload.lean ====
/-
  One tile of the kernel's result, entry by entry.

  At a grid point the body holds a whole slab `s` of the argument (64 × 2048: one batch) and a band `r` of it
  (64 × 512: the columns of this tile). It stores, at row `p` and column `q` of the tile,

      1                                                        if 512 t + p = q   (t the tile's number),
      (∑ₖ r(k,p) · s(k,q)) / max (√(∑ₖ r(k,p)²) · √(∑ₖ s(k,q)²), ε)     otherwise:

  the matrix product into a zero accumulator is the plain sum over the contracted axis, each lane sum the sum over the 64
  rows, the two norms are spread along a row and along a column before they are multiplied, and the diagonal test adds
  the tile's first row to a row counter and compares with a column counter, on words that stay below 2³².
-/
import proofs.«125126_g29618094474071_cont_9to1_1740_5_alg».proof.Proof.Gen.KernelIdeal.Skeleton
import proofs.«125126_g29618094474071_cont_9to1_1740_5_alg».proof.Proof.CosineSpec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Tile

open Cert.KernelIdeal Cert.KernelIdeal.Gen Idealize.ShloMosaic Idealize.ShloMosaic.ValueIdx Cert.Cosine

/-! ## Two layout readings: a vector stood up as a column, and a column spread over rows -/

section Layout
variable {α : Type}

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The contraction's operand indices -/

theorem lhs_dot_0 (j : S512x2048.Idx) (q : dot_S64x512_S64x2048_S512x2048_0_0_1_1_n_n.contr.Idx) :
    (dot_S64x512_S64x2048_S512x2048_0_0_1_1_n_n.lhsIdx j q 0).val = (q ⟨0, by decide⟩).val :=
  dot_S64x512_S64x2048_S512x2048_0_0_1_1_n_n.lhsIdx_val_of_single rfl j q
theorem lhs_dot_1 (j : S512x2048.Idx) (q : dot_S64x512_S64x2048_S512x2048_0_0_1_1_n_n.contr.Idx) :
    (dot_S64x512_S64x2048_S512x2048_0_0_1_1_n_n.lhsIdx j q 1).val = (j 0).val := by
  unfold DotDims.lhsIdx
  rw [dif_neg (show ¬(1 : Fin S64x512.rank) ∈ dot_S64x512_S64x2048_S512x2048_0_0_1_1_n_n.lhsBatch by decide), dif_pos (show (1 : Fin S64x512.rank) ∈ dot_S64x512_S64x2048_S512x2048_0_0_1_1_n_n.lhsNonContracting by decide)]
  rfl
theorem rhs_dot_0 (j : S512x2048.Idx) (q : dot_S64x512_S64x2048_S512x2048_0_0_1_1_n_n.contr.Idx) :
    (dot_S64x512_S64x2048_S512x2048_0_0_1_1_n_n.rhsIdx j q 0).val = (q ⟨0, by decide⟩).val :=
  dot_S64x512_S64x2048_S512x2048_0_0_1_1_n_n.rhsIdx_val_of_single rfl j q
theorem rhs_dot_1 (j : S512x2048.Idx) (q : dot_S64x512_S64x2048_S512x2048_0_0_1_1_n_n.contr.Idx) :
    (dot_S64x512_S64x2048_S512x2048_0_0_1_1_n_n.rhsIdx j q 1).val = (j 1).val := by
  unfold DotDims.rhsIdx
  rw [dif_neg (show ¬(1 : Fin S64x2048.rank) ∈ dot_S64x512_S64x2048_S512x2048_0_0_1_1_n_n.rhsBatch by decide), dif_pos (show (1 : Fin S64x2048.rank) ∈ dot_S64x512_S64x2048_S512x2048_0_0_1_1_n_n.rhsNonContracting by decide)]
  rfl

/-- The product of the band (transposed) with the slab, into zero: at `(p, q)` the sum over the 64 rows of
    `band(k, p) · slab(k, q)`. -/
theorem dots_apply (l : FVec Ideal S64x512 .f32) (r : FVec Ideal S64x2048 .f32) (p : Fin 512) (q : Fin 2048) :
    matmul dot_S64x512_S64x2048_S512x2048_0_0_1_1_n_n none l r (constant S512x2048 .f32 0x00000000#32) (ix2 p q)
      = ∑ k : Fin 64, l (ix2 k p) * r (ix2 k q) := by
  simp only [matmul]
  rw [Ideal.matmul_constant_zero_apply, ← Equiv.sum_comp (contrEquiv1 dot_S64x512_S64x2048_S512x2048_0_0_1_1_n_n 64 rfl rfl).symm]
  refine Finset.sum_congr rfl fun k _ => ?_
  have hk := contrEquiv1_symm_val dot_S64x512_S64x2048_S512x2048_0_0_1_1_n_n 64 rfl rfl k
  have el : dot_S64x512_S64x2048_S512x2048_0_0_1_1_n_n.lhsIdx (ix2 p q) ((contrEquiv1 dot_S64x512_S64x2048_S512x2048_0_0_1_1_n_n 64 rfl rfl).symm k) = ix2 k p := funext fun a => Fin.ext (by
    match a with
    | ⟨0, _⟩ => exact (lhs_dot_0 _ _).trans hk
    | ⟨1, _⟩ => exact lhs_dot_1 _ _)
  have er : dot_S64x512_S64x2048_S512x2048_0_0_1_1_n_n.rhsIdx (ix2 p q) ((contrEquiv1 dot_S64x512_S64x2048_S512x2048_0_0_1_1_n_n 64 rfl rfl).symm k) = ix2 k q := funext fun a => Fin.ext (by
    match a with
    | ⟨0, _⟩ => exact (rhs_dot_0 _ _).trans hk
    | ⟨1, _⟩ => exact rhs_dot_1 _ _)
  rw [el, er]

/-! ## The lane sums -/

/-- A slab summed down its 64 rows (the lane sum with the zero accumulator): at column `q`, `∑ₖ y(k, q)`. -/
theorem slabSum_apply (y : FVec Ideal S64x2048 .f32) (h : S64x2048.Reduces [0] S2048) (q : Fin 2048) :
    FloatOps.reduceAdd [0] h y (ix1 q) = ∑ k : Fin 64, y (ix2 k q) := by
  refine (Ideal.multiReduction_add_single y 0x00000000#32 h (.inl rfl) rfl (ix1 q)).trans ?_
  refine Finset.sum_congr rfl fun k _ => congrArg y (funext fun a => Fin.ext ?_)
  match a with
  | ⟨0, _⟩ => rfl
  | ⟨1, _⟩ => rfl

/-- A band summed down its 64 rows: at column `p`, `∑ₖ y(k, p)`. -/
theorem bandSum_apply (y : FVec Ideal S64x512 .f32) (h : S64x512.Reduces [0] S512) (p : Fin 512) :
    FloatOps.reduceAdd [0] h y (ix1 p) = ∑ k : Fin 64, y (ix2 k p) := by
  refine (Ideal.multiReduction_add_single y 0x00000000#32 h (.inl rfl) rfl (ix1 p)).trans ?_
  refine Finset.sum_congr rfl fun k _ => congrArg y (funext fun a => Fin.ext ?_)
  match a with
  | ⟨0, _⟩ => rfl
  | ⟨1, _⟩ => rfl

/-! ## The diagonal test -/

/-- The tile's diagonal mask at `(p, q)`, tile number `t < 4`: the bit of `512 t + p = q`. -/
theorem mask_apply (t : Nat) (ht : t < 4) (h0 : S512x2048.Iotas .tc 32 [0]) (h1 : S512x2048.Iotas .tc 32 [1])
    (p : Fin 512) (q : Fin 2048) :
    cmpi .eq (addi (broadcast S512x2048 (Scalar.muli (BitVec.ofNat 32 t) 512#32)) (iota .tc S512x2048 32 [0] h0))
        (iota .tc S512x2048 32 [1] h1) (ix2 p q)
      = if t * 512 + p.val = q.val then 1#1 else 0#1 := by
  show IntOp.cmpi .eq (IntOp.addi (Scalar.muli (BitVec.ofNat 32 t) 512#32) (iota .tc S512x2048 32 [0] h0 (ix2 p q)))
      (iota .tc S512x2048 32 [1] h1 (ix2 p q)) = _
  rw [iota_single_apply, iota_single_apply, tile_row_word]
  exact cmpi_eq_ofNat _ _ (by have := p.isLt; show t * 512 + p.val < 2 ^ 32; omega) (by have := q.isLt; show q.val < 2 ^ 32; omega)

/-! ## The tile -/

/-- A root taken entry by entry. -/
theorem sqrt_apply {s : Shape} (x : FVec Ideal s .f32) (j : s.Idx) : sqrt x j = Ideal.sqrt (x j) := rfl
/-- A scalar word read at the ideal instance. -/
theorem scalar_ofBits (b : BitVec 32) : Scalar.ofBits (F := Ideal) .f32 b = Ideal.ofBits .f32 b := rfl

/-- What the body stores at row `p`, column `q` of its tile, from the slab `v0` and the band `v4` it loaded, at grid
    point `i` (whose second coordinate is the tile's number). -/
theorem pay_apply (i : grid0.Coords) (v0 : Vec Ideal S1x64x2048 .f32) (v4 : Vec Ideal S1x64x512 .f32) (p : Fin 512) (q : Fin 2048) :
    k0_pay1 (F := Ideal) i v0 v4 (ix3 (0 : Fin 1) p q)
      = if (i 1).val * 512 + p.val = q.val then Ideal.ofBits .f32 0x3F800000#32
        else Ideal.div (∑ k : Fin 64, v4 (ix3 (0 : Fin 1) k p) * v0 (ix3 (0 : Fin 1) k q))
          (max (Ideal.sqrt (∑ k : Fin 64, v4 (ix3 (0 : Fin 1) k p) * v4 (ix3 (0 : Fin 1) k p))
              * Ideal.sqrt (∑ k : Fin 64, v0 (ix3 (0 : Fin 1) k q) * v0 (ix3 (0 : Fin 1) k q)))
            (Ideal.ofBits .f32 0x322BCC77#32)) := by
  unfold k0_pay1
  dsimp only
  refine (shapeCast_ab_1ab_apply _ _ 0 p q).trans ?_
  rw [select_apply, mask_apply _ (i 1).isLt, select_ite]
  simp only [divf_apply, maximumf_apply, mulf_apply, dots_apply, broadcast_apply, broadcastTo_a1_ab_apply,
    broadcastTo_1b_ab_apply, shapeCast_a_a1_apply, shapeCast_a_1a_apply, sqrt_apply, multiReduction, bandSum_apply, slabSum_apply,
    shapeCast_1ab_ab_apply, scalar_ofBits]
  rw [bandSum_apply, slabSum_apply]
  simp only [mulf_apply, shapeCast_1ab_ab_apply]

end Cert.KernelIdeal.Tile

end
-- ==== Proof.KernelValue.lean ====
/-
  The kernel's result array is the cosine-similarity function of its argument.

  The grid has sixteen points `(b, t)`: batch `b` of four, row tile `t` of four. At a point the body holds the whole slab
  of batch `b` (its input block: rows 0‥63, columns 0‥2047 of `x_b`) and re-reads from it the band of columns
  `512 t ‥ 512 t + 511`; the one store it makes covers its output block, so what the point writes back is the tile payload
  of that slab and band. Entry `(0, p, q)` of the block lies at `(b, 512 t + p, q)` of the result array; the slab's entry
  `(0, k, q)` is `x(b, k, q)` and the band's `(0, k, p)` is `x(b, k, 512 t + p)`; so the tile payload there is the
  similarity function at `(b, 512 t + p, q)`, diagonal included (`512 t + p = q`). The sixteen blocks tile the array
  (row `r` of batch `b` is in the block of point `(b, r / 512)`), so the array ends holding the function everywhere.
-/
import proofs.«125126_g29618094474071_cont_9to1_1740_5_alg».proof.Proof.Gen.KernelIdeal.Value
import proofs.«125126_g29618094474071_cont_9to1_1740_5_alg».proof.Proof.TilePayload
import Idealize.ShloMosaic.Lib.Tactic

noncomputable section
namespace Cert.KernelIdeal.KValue
open Cert.KernelIdeal Cert.KernelIdeal.Gen Idealize.ShloMosaic Idealize.ShloMosaic.TcCoe Idealize.SL.Sem Idealize.ShloMosaic.ValueIdx Cert.Cosine
open Idealize.ShloMosaic.Pipeline (Dat)
open Cert.KernelIdeal.Tile

section AnyF
variable {F : FTy → Type} [FloatOps F]

/-- The zero offsets of a whole-block access, however they are spelt. -/
theorem hz : (![0, 0, 0] : Fin 3 → Nat) = fun _ => 0 := funext fun a => by fin_cases a <;> rfl

/-- What the body leaves in its output block: the tile payload of the slab it was given and of the band it re-reads from
    that slab (its one store covers the block; the earlier read of the output block is not used). -/
theorem out_A (c : Dev nD) (i : grid0.Coords) (a2 : Memref sig .tc .vmem S1x64x2048 .f32) (h2 : a2.IsWhole)
    (a3 : Memref sig .tc .vmem S1x512x2048 .f32) (h3 : a3.IsWhole) (x0 : Vec F S1x64x2048 .f32) :
    out0_A_1 c i a2 h2 a3 h3 x0 = k0_pay1 i x0 (View.ld x0 (Rect.unit (s := S1x64x2048) (k0_off1 i) S1x64x512.size (k0_off1_inb i))) := by
  unfold out0_A_1
  rw [View.read_writes_eq_canon _ _ _ (cover0_A_1 c i a2 h2 a3 h3 x0)]
  unfold kernelRun0_A
  dsimp only
  sl_unfold_words
  rw [View.canon_unit_zero hz]
  simp only [View.readAt_eq_ld, h2.read_unread, View.ld_unit_zero (S := S1x64x2048) hz]

/-- The band read at `(0, k, p)` is the slab at `(0, k, 512 t + p)`, `t` the point's tile number: the load's column offset. -/
theorem band_apply (i : grid0.Coords) (X : Vec F S1x64x2048 .f32) (k : Fin 64) (p : Fin 512) (j : S1x64x2048.Idx)
    (hj0 : (j 0).val = 0) (hj1 : (j 1).val = k.val) (hj2 : (j 2).val = 512 * (i 1).val + p.val) :
    View.ld X (Rect.unit (s := S1x64x2048) (k0_off1 i) S1x64x512.size (k0_off1_inb i)) (ix3 (0 : Fin 1) k p) = X j := by
  show X ((Rect.unit (s := S1x64x2048) (k0_off1 i) S1x64x512.size (k0_off1_inb i)).emb (ix3 (0 : Fin 1) k p)) = X j
  refine congrArg X (funext fun a => Fin.ext ?_)
  rw [Rect.emb_apply]
  match a with
  | ⟨0, _⟩ => show k0_off1 i 0 + 1 * 0 = (j 0).val; rw [k0_off1_eq i, hj0]; rfl
  | ⟨1, _⟩ => show k0_off1 i 1 + 1 * k.val = (j 1).val; rw [k0_off1_eq i, hj1]; show 0 + 1 * k.val = k.val; omega
  | ⟨2, _⟩ => show k0_off1 i 2 + 1 * p.val = (j 2).val; rw [k0_off1_eq i, hj2]; show 512 * (i 1).val + 1 * p.val = _; omega

end AnyF

/-- The tile payload is the similarity function, entry by entry: for a slab and a band that are batch `b` of `x` and its
    columns from `512 t` on, the payload at a block entry `y` is `cosSim x` at the array entry `(b, 512 t + y₁, y₂)`. -/
theorem tile_eq (x : XIdx → EReal) (i : grid0.Coords) (v0 : Vec Ideal S1x64x2048 .f32) (v4 : Vec Ideal S1x64x512 .f32)
    (b ti : Fin 4) (hti : (i 1).val = ti.val)
    (hv0 : ∀ (k : Fin 64) (q : Fin 2048), v0 (ix3 (0 : Fin 1) k q) = x (ix3 b k q))
    (hv4 : ∀ (k : Fin 64) (p : Fin 512), v4 (ix3 (0 : Fin 1) k p) = x (ix3 b k ⟨512 * ti.val + p.val, by omega⟩))
    (y : S1x512x2048.Idx) (io : OIdx) (h0 : (io 0).val = b.val) (h1 : (io 1).val = 512 * ti.val + (y 1).val)
    (h2 : (io 2).val = (y 2).val) :
    k0_pay1 (F := Ideal) i v0 v4 y = cosSim x io := by
  obtain ⟨u, p, q, rfl⟩ : ∃ (u : Fin 1) (p : Fin 512) (q : Fin 2048), y = ix3 u p q := ⟨y 0, y 1, y 2, eq_ix3 y⟩
  obtain rfl : u = 0 := Subsingleton.elim _ _
  have hlt : 512 * ti.val + p.val < 2048 := by omega
  obtain rfl : io = ix3 b ⟨512 * ti.val + p.val, hlt⟩ q := funext fun a => Fin.ext (by
    match a with
    | ⟨0, _⟩ => exact h0
    | ⟨1, _⟩ => exact h1
    | ⟨2, _⟩ => exact h2)
  rw [pay_apply]
  unfold cosSim sim gram Cosine.norm
  simp only [hv0, hv4, hti]
  have hc : (ti.val * 512 + p.val = q.val) ↔ (512 * ti.val + p.val = q.val) := by constructor <;> intro h <;> omega
  exact if_congr hc rfl rfl

/-- The printed index maps, decided over the sixteen grid points. -/
theorem idx_facts : ∀ t : Fin cfg0.N,
    win0_0.index t (0 : Fin 3) = (grid0.coords t 0).val ∧ win0_0.index t (1 : Fin 3) = 0 ∧ win0_0.index t (2 : Fin 3) = 0
    ∧ win0_1.index t (0 : Fin 3) = (grid0.coords t 0).val ∧ win0_1.index t (1 : Fin 3) = (grid0.coords t 1).val
    ∧ win0_1.index t (2 : Fin 3) = 0 :=
  (by decide +kernel : ∀ t : Fin grid0.N, _)

variable (m : (ℓ : Loc nD τ sig) → Buf (Elt Ideal) ℓ) (ρ : Dev nD → PrngReg)

/-- What point `t` writes back is its block of the similarity function of the argument array. -/
theorem flushed_eq (c : Dev nD) (t : Fin cfg0.N) :
    (dats m 0 c).flushed 1 t = ((cfg0.win 1).blk t).view.read (Elt Ideal) (cosSim (V m c main_arg0)) := by
  rw [Value.flushed1_A, out_A]
  funext j
  show k0_pay1 (F := Ideal) (grid0.coords t) (iblk m c 0 t)
      (View.ld (iblk m c 0 t) (Rect.unit (s := S1x64x2048) (k0_off1 (grid0.coords t)) S1x64x512.size (k0_off1_inb (grid0.coords t)))) j
    = cosSim (V m c main_arg0) (((cfg0.win 1).blk t).view.emb j)
  obtain ⟨e00, e01, e02, e10, e11, e12⟩ := idx_facts t
  have hslab : ∀ (k : Fin 64) (q : Fin 2048), (iblk m c 0 t : Vec Ideal S1x64x2048 .f32) (ix3 (0 : Fin 1) k q)
      = V m c main_arg0 (ix3 (⟨(grid0.coords t 0).val, (grid0.coords t 0).isLt⟩ : Fin 4) k q) := by
    intro k q
    show V m c main_arg0 (((cfg0.win 0).blk t).view.emb (ix3 (0 : Fin 1) k q)) = _
    refine congrArg (V m c main_arg0) (funext fun a => Fin.ext ?_)
    match a with
    | ⟨0, _⟩ => show win0_0.index t (0 : Fin 3) * 1 + 1 * 0 = (grid0.coords t 0).val; omega
    | ⟨1, _⟩ => show win0_0.index t (1 : Fin 3) * 64 + 1 * k.val = k.val; omega
    | ⟨2, _⟩ => show win0_0.index t (2 : Fin 3) * 2048 + 1 * q.val = q.val; omega
  refine tile_eq (V m c main_arg0) (grid0.coords t) (iblk m c 0 t : Vec Ideal S1x64x2048 .f32) _
    ⟨(grid0.coords t 0).val, (grid0.coords t 0).isLt⟩ ⟨(grid0.coords t 1).val, (grid0.coords t 1).isLt⟩ rfl hslab
    (fun k p => (band_apply (grid0.coords t) (iblk m c 0 t : Vec Ideal S1x64x2048 .f32) k p
      (ix3 (0 : Fin 1) k ⟨512 * (grid0.coords t 1).val + p.val, by have := (grid0.coords t 1).isLt; have : (grid0.coords t 1).val < 4 := this; omega⟩) rfl rfl rfl).trans (hslab k _))
    j _ ?_ ?_ ?_
  · show win0_1.index t (0 : Fin 3) * 1 + 1 * (j 0).val = (grid0.coords t 0).val
    have : (j 0).val < 1 := (j 0).isLt
    omega
  · show win0_1.index t (1 : Fin 3) * 512 + 1 * (j 1).val = 512 * (grid0.coords t 1).val + (j 1).val
    omega
  · show win0_1.index t (2 : Fin 3) * 2048 + 1 * (j 2).val = (j 2).val
    omega

/-- An index of the result array is in point `t`'s block iff each coordinate is in the block's range on its axis. -/
theorem mem_blk (t : Fin cfg0.N) (i : S4x2048x2048.Idx) :
    i ∈ ((cfg0.win 1).blk t).view.set ↔ ∀ a : Fin 3, win0_1.index t a * S1x512x2048.size a ≤ (i a).val
      ∧ (i a).val < win0_1.index t a * S1x512x2048.size a + S1x512x2048.size a := by
  show i ∈ ((View.whole main_v0).slice (win0_1.rect t)).set ↔ _
  rw [View.set_slice_whole, Rect.mem_set_unit]
  exact Iff.rfl

/-- Every pair (batch, row tile) is some grid point's output block index. -/
theorem idx_onto : ∀ (b ti : Fin 4), ∃ t : Fin cfg0.N, win0_1.index t = ![b.val, ti.val, 0] :=
  (by decide +kernel : ∀ (b ti : Fin 4), ∃ t : Fin grid0.N, win0_1.index t = ![b.val, ti.val, 0])

/-- The sixteen output blocks tile the result array: `(b, r, q)` is in the block of the point with batch `b` and row
    tile `r / 512`. -/
theorem cover (i : S4x2048x2048.Idx) :
    ∃ t : Fin cfg0.N, (cfg0.win 1).flush t = true ∧ i ∈ ((cfg0.win 1).blk t).view.set := by
  have hi0 : (i 0).val < 4 := (i 0).isLt
  have hi1 : (i 1).val < 2048 := (i 1).isLt
  have hi2 : (i 2).val < 2048 := (i 2).isLt
  obtain ⟨t, ht⟩ := idx_onto ⟨(i 0).val, hi0⟩ ⟨(i 1).val / 512, by omega⟩
  have q0 : win0_1.index t (0 : Fin 3) = (i 0).val := congrFun ht 0
  have q1 : win0_1.index t (1 : Fin 3) = (i 1).val / 512 := congrFun ht 1
  have q2 : win0_1.index t (2 : Fin 3) = 0 := congrFun ht 2
  refine ⟨t, flush0_1 t, ?_⟩
  rw [mem_blk]
  intro a
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 512 ≤ (i 1).val ∧ (i 1).val < win0_1.index t (1 : Fin 3) * 512 + 512; omega
  | ⟨2, _⟩ => show win0_1.index t (2 : Fin 3) * 2048 ≤ (i 2).val ∧ (i 2).val < win0_1.index t (2 : Fin 3) * 2048 + 2048; omega

/-- The result array after the run is the similarity function of the argument array. -/
theorem final (c : Dev nD) : (dats m 0 c).arrAt 1 cfg0.N = cosSim (V m c main_arg0) :=
  (dats m 0 c).arrAt_eq_of_cover 1 (cosSim (V m c main_arg0)) (fun t _ => flushed_eq m c t) cover

/-- The run, read: the result array at the similarity function of the argument as launched, the argument unchanged. -/
theorem run : θ_run defs (onTc (τ := τ) (main (F := Ideal))) ⟨m, fun _ => 0, ρ⟩ fun r => ∀ c : Dev nD,
      r.2.mem ((c : Thread nD τ).loc main_v0) = cosSim (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.KValue
end
-- ==== Proof.lean ====
/-
  The kernel computes, tile by tile, the matrix of cosine similarities between the 2048 columns of each of four
  64 × 2048 slabs, with the diagonal set to one; the reference computes the same matrix whole. Over the extended reals
  both are ONE function of the argument, `Cert.Cosine.cosSim` (Proof/CosineSpec.lean): at `(b, p, q)` it is `1` if
  `p = q` and otherwise `⟨x_b(·,p), x_b(·,q)⟩ / max (‖x_b(·,p)‖ · ‖x_b(·,q)‖, ε)`, the inner product and the norms
  plain sums over the 64 entries of a column. Neither side re-associates or distributes anything: the kernel's matrix
  product into a zero accumulator and its lane sums are those same sums (Proof/TilePayload.lean), its sixteen output
  blocks tile the result (Proof/KernelValue.lean), and the reference's contraction, reduce, broadcasts and select read
  entry by entry to the same expression (Proof/RefIsCosine.lean). So no finiteness of the input is used.

  The three frames are the generated frame runs (the reference's is its run with the result dropped); the ideal pass
  rewrote nothing, so `preserves` is `True`; `algebraic` sets the two runs side by side at `cosSim` of the argument.
-/
import proofs.«125126_g29618094474071_cont_9to1_1740_5_alg».proof.Defs
import proofs.«125126_g29618094474071_cont_9to1_1740_5_alg».proof.Proof.Gen.Kernel
import proofs.«125126_g29618094474071_cont_9to1_1740_5_alg».proof.Proof.Gen.Kernel.Skeleton
import proofs.«125126_g29618094474071_cont_9to1_1740_5_alg».proof.Proof.Gen.Kernel.Launch
import proofs.«125126_g29618094474071_cont_9to1_1740_5_alg».proof.Proof.Gen.Kernel.Points
import proofs.«125126_g29618094474071_cont_9to1_1740_5_alg».proof.Proof.Gen.Kernel.Frame
import proofs.«125126_g29618094474071_cont_9to1_1740_5_alg».proof.Proof.Gen.KernelIdeal
import proofs.«125126_g29618094474071_cont_9to1_1740_5_alg».proof.Proof.Gen.KernelIdeal.Skeleton
import proofs.«125126_g29618094474071_cont_9to1_1740_5_alg».proof.Proof.Gen.KernelIdeal.Launch
import proofs.«125126_g29618094474071_cont_9to1_1740_5_alg».proof.Proof.Gen.KernelIdeal.Points
import proofs.«125126_g29618094474071_cont_9to1_1740_5_alg».proof.Proof.Gen.KernelIdeal.Frame
import proofs.«125126_g29618094474071_cont_9to1_1740_5_alg».proof.Proof.Gen.ReferenceIdeal
import proofs.«125126_g29618094474071_cont_9to1_1740_5_alg».proof.Proof.Gen.Pre_finite_inputs
import proofs.«125126_g29618094474071_cont_9to1_1740_5_alg».proof.Proof.Gen.KernelIdeal.Value
import proofs.«125126_g29618094474071_cont_9to1_1740_5_alg».proof.Proof.Gen.ReferenceIdeal.Run
import proofs.«125126_g29618094474071_cont_9to1_1740_5_alg».proof.Proof.Gen.ReferenceIdeal.Read
import proofs.«125126_g29618094474071_cont_9to1_1740_5_alg».proof.Proof.CosineSpec
import proofs.«125126_g29618094474071_cont_9to1_1740_5_alg».proof.Proof.RefIsCosine
import proofs.«125126_g29618094474071_cont_9to1_1740_5_alg».proof.Proof.TilePayload
import proofs.«125126_g29618094474071_cont_9to1_1740_5_alg».proof.Proof.KernelValue
import Idealize.ShloMosaic.Adequacy
import Idealize.ShloMosaic.Init

noncomputable section

namespace Cert.Proof

open Idealize.ShloMosaic Idealize.SL.Sem

/-- The word-level kernel runs and leaves its argument as it was. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its argument as it was: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the argument, the kernel's result array ends at `cosSim` of the argument (its sixteen
    tiles) and the reference's at its composed term, which read entry by entry is `cosSim` of the same argument. -/
theorem algebraic : Cert.algebraic_KernelIdeal_ReferenceIdeal := by
  intro m ρ m' ρ' _ hagree
  refine ⟨fun c => Cert.Cosine.cosSim (m ((c.tc : Thread Cert.KernelIdeal.nD Cert.KernelIdeal.τ).loc Cert.KernelIdeal.main_arg0)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.RefValue.result_eq, hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
